-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn_part1 {F : FTy → Type} [FloatOps F] (main_v13 : IVec S_ 1) (main_v16 : IVec S32x1x1024x1024 1) : IVec S_ 1 :=
  let main_c_5 : IVec S_ 1 := constantI S_ 1 1#1
  let main_v17 : IVec S_ 1 := (fun x v => Host.reduce IntOp.andi x v reducesTo_S32x1x1024x1024_S_d0_1_2_3 h_S_) main_v16 main_c_5
  let main_v18 : IVec S_ 1 := andi main_v13 main_v17
  main_v18

def fn {F : FTy → Type} [FloatOps F] (main_arg0 : FVec F S32x1x1024x1024 .f32) (main_arg1 : FVec F S32x1x1024x1024 .f32) (main_arg2 : FVec F S32x1x1024x1024 .f32) (main_arg3 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1x1024x1024 .f32 := Host.absf main_arg1
  let main_cst_0 : FVec F S_ .f32 := constant S_ .f32 0x7F800000#32
  let main_v5 : FVec F S32x1x1024x1024 .f32 := broadcastInDim S32x1x1024x1024 ![] bcast_S_S32x1x1024x1024 main_cst_0
  let main_v6 : IVec S32x1x1024x1024 1 := cmpf .olt main_v4 main_v5
  let main_c_1 : IVec S_ 1 := constantI S_ 1 1#1
  let main_v7 : IVec S_ 1 := (fun x v => Host.reduce IntOp.andi x v reducesTo_S32x1x1024x1024_S_d0_1_2_3 h_S_) main_v6 main_c_1
  let main_v8 : IVec S_ 1 := andi main_v3 main_v7
  let main_v9 : FVec F S32x1x1024x1024 .f32 := Host.absf main_arg2
  let main_cst_2 : FVec F S_ .f32 := constant S_ .f32 0x7F800000#32
  let main_v10 : FVec F S32x1x1024x1024 .f32 := broadcastInDim S32x1x1024x1024 ![] bcast_S_S32x1x1024x1024 main_cst_2
  let main_v11 : IVec S32x1x1024x1024 1 := cmpf .olt main_v9 main_v10
  let main_c_3 : IVec S_ 1 := constantI S_ 1 1#1
  let main_v12 : IVec S_ 1 := (fun x v => Host.reduce IntOp.andi x v reducesTo_S32x1x1024x1024_S_d0_1_2_3 h_S_) main_v11 main_c_3
  let main_v13 : IVec S_ 1 := andi main_v8 main_v12
  let main_v14 : FVec F S32x1x1024x1024 .f32 := Host.absf main_arg3
  let main_cst_4 : FVec F S_ .f32 := constant S_ .f32 0x7F800000#32
  let main_v15 : FVec F S32x1x1024x1024 .f32 := broadcastInDim S32x1x1024x1024 ![] bcast_S_S32x1x1024x1024 main_cst_4
  let main_v16 : IVec S32x1x1024x1024 1 := cmpf .olt main_v14 main_v15
  fn_part1 (F := F) main_v13 main_v16
-- ==== Kernel.lean ====
abbrev S32x1x1024x1024 : Shape := ⟨4, ![32, 1, 1024, 1024]⟩
abbrev S1x1x1024x1024 : Shape := ⟨4, ![1, 1, 1024, 1024]⟩
abbrev S1024x1024 : Shape := ⟨2, ![1024, 1024]⟩
abbrev S1x1024 : Shape := ⟨2, ![1, 1024]⟩
abbrev S1024x1 : Shape := ⟨2, ![1024, 1]⟩
abbrev S1023x1024 : Shape := ⟨2, ![1023, 1024]⟩
abbrev S1024x1023 : Shape := ⟨2, ![1024, 1023]⟩

abbrev nBuf : Space → Nat
  | .hbm => 5
  | .vmem => 6
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32x1x1024x1024, .f32⟩
  | .hbm, ⟨3, _⟩ => ⟨S32x1x1024x1024, .f32⟩
  | .hbm, ⟨4, _⟩ => ⟨S32x1x1024x1024, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  slices_S1024x1024_o0_0_S1023x1024 : S1024x1024.Slices ![0, 0] S1023x1024
  concatenates_S1x1024_S1023x1024_S1024x1024_d0 : Shape.Concatenates [S1x1024, S1023x1024] S1024x1024 0
  slices_S1024x1024_o1_0_S1023x1024 : S1024x1024.Slices ![1, 0] S1023x1024
  concatenates_S1023x1024_S1x1024_S1024x1024_d0 : Shape.Concatenates [S1023x1024, S1x1024] S1024x1024 0
  slices_S1024x1024_o0_0_S1024x1023 : S1024x1024.Slices ![0, 0] S1024x1023
  concatenates_S1024x1_S1024x1023_S1024x1024_d1 : Shape.Concatenates [S1024x1, S1024x1023] S1024x1024 1
  slices_S1024x1024_o0_1_S1024x1023 : S1024x1024.Slices ![0, 1] S1024x1023
  concatenates_S1024x1023_S1024x1_S1024x1024_d1 : Shape.Concatenates [S1024x1023, S1024x1] S1024x1024 1
  slices_S1024x1024_o1_0_S1x1024 : S1024x1024.Slices ![1, 0] S1x1024
  slices_S1024x1024_o0_1_S1024x1 : S1024x1024.Slices ![0, 1] S1024x1
  slices_S1024x1024_o1022_0_S1x1024 : S1024x1024.Slices ![1022, 0] S1x1024
  shapeCasts_S1024x1024_S1x1x1024x1024 : S1024x1024.ShapeCasts S1x1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S32x1x1024x1024.size a
  hwx0_0 : ∀ i : grid0.Coords, EltTy.bits .f32 = 32 ∨ (Rect.block (s := S32x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S32x1x1024x1024.size a
  hwx0_1 : ∀ i : grid0.Coords, EltTy.bits .f32 = 32 ∨ (Rect.block (s := S32x1x1024x1024) S1x1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x1024.size a ≤ S32x1x1024x1024.size a
  hwx0_2 : ∀ i : grid0.Coords, EltTy.bits .f32 = 32 ∨ (Rect.block (s := S32x1x1024x1024) S1x1x1024x1024.size (cc0_transform_2 i) (hinb0_2 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩
abbrev S32x1x1026x1026 : Shape := ⟨4, ![32, 1, 1026, 1026]⟩
abbrev S1 : Shape := ⟨1, ![1]⟩
abbrev S32x1x1024 : Shape := ⟨3, ![32, 1, 1024]⟩
abbrev S32x1x1x1024 : Shape := ⟨4, ![32, 1, 1, 1024]⟩
abbrev S32x1x1024x1 : Shape := ⟨4, ![32, 1, 1024, 1]⟩

abbrev nBuf : Space → Nat
  | .hbm => 41
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32x1x1024x1024, .f32⟩
  | .hbm, ⟨3, _⟩ => ⟨S32x1x1024x1024, .f32⟩
  | .hbm, ⟨4, _⟩ => ⟨S_, .i32⟩
  | .hbm, ⟨5, _⟩ => ⟨S_, .f32⟩
  | .hbm, ⟨6, _⟩ => ⟨S32x1x1026x1026, .f32⟩
  | .hbm, ⟨7, _⟩ => ⟨S32x1x1024x1024, .f32⟩
  | .hbm, ⟨8, _⟩ => ⟨S32x1x1024x1024, .f32⟩
  | .hbm, ⟨9, _⟩ => ⟨S32x1x1024x1024, .f32⟩
  | .hbm, ⟨10, _⟩ => ⟨S32x1x1024x1024, .f32⟩
  | .hbm, ⟨11, _⟩ => ⟨S32x1x1024x1024, .f32⟩
  | .hbm, ⟨12, _⟩ => ⟨S32x1x1024x1024, .f32⟩
  | .hbm, ⟨13, _⟩ => ⟨S32x1x1024x1024, .f32⟩
  | .hbm, ⟨14, _⟩ => ⟨S_, .f32⟩
  | .hbm, ⟨15, _⟩ => ⟨S32x1x1024x1024, .f32⟩
  | .hbm, ⟨16, _⟩ => ⟨S32x1x1024x1024, .f32⟩
  | .hbm, ⟨17, _⟩ => ⟨S_, .f32⟩
  | .hbm, ⟨18, _⟩ => ⟨S32x1x1024x1024, .f32⟩
  | .hbm, ⟨19, _⟩ => ⟨S32x1x1024x1024, .f32⟩
  | .hbm, ⟨20, _⟩ => ⟨S32x1x1024x1024, .f32⟩
  | .hbm, ⟨21, _⟩ => ⟨S_, .i32⟩
  | .hbm, ⟨22, _⟩ => ⟨S1, .i32⟩
  | .hbm, ⟨23, _⟩ => ⟨S_, .f32⟩
  | .hbm, ⟨24, _⟩ => ⟨S32x1x1024, .f32⟩
  | .hbm, ⟨25, _⟩ => ⟨S32x1x1024x1024, .f32⟩
  | .hbm, ⟨26, _⟩ => ⟨S32x1x1x1024, .f32⟩
  | .hbm, ⟨27, _⟩ => ⟨S32x1x1024, .f32⟩
  | .hbm, ⟨28, _⟩ => ⟨S_, .i32⟩
  | .hbm, ⟨29, _⟩ => ⟨S1, .i32⟩
  | .hbm, ⟨30, _⟩ => ⟨S32x1x1024x1024, .f32⟩
  | .hbm, ⟨31, _⟩ => ⟨S32x1x1024x1, .f32⟩
  | .hbm, ⟨32, _⟩ => ⟨S32x1x1024, .f32⟩
  | .hbm, ⟨33, _⟩ => ⟨S_, .i32⟩
  | .hbm, ⟨34, _⟩ => ⟨S1, .i32⟩
  | .hbm, ⟨35, _⟩ => ⟨S32x1x1024x1024, .f32⟩
  | .hbm, ⟨36, _⟩ => ⟨S32x1x1x1024, .f32⟩
  | .hbm, ⟨37, _⟩ => ⟨S32x1x1024, .f32⟩
  | .hbm, ⟨38, _⟩ => ⟨S_, .i32⟩
  | .hbm, ⟨39, _⟩ => ⟨S1, .i32⟩
  | .hbm, ⟨40, _⟩ => ⟨S32x1x1024x1024, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  pads_S32x1x1024x1024_S32x1x1026x1026_000_000_110_110 : S32x1x1024x1024.Pads (![0, 0, 1, 1] : Fin 4 → Nat) ![0, 0, 1, 1] ![0, 0, 0, 0] S32x1x1026x1026
  h_S_ : 0 < S_.numel
  slices_S32x1x1026x1026_S32x1x1024x1024_0_0_0_1 : S32x1x1026x1026.Slices ![0, 0, 0, 1] S32x1x1024x1024
  slices_S32x1x1026x1026_S32x1x1024x1024_0_0_2_1 : S32x1x1026x1026.Slices ![0, 0, 2, 1] S32x1x1024x1024
  slices_S32x1x1026x1026_S32x1x1024x1024_0_0_1_0 : S32x1x1026x1026.Slices ![0, 0, 1, 0] S32x1x1024x1024
  slices_S32x1x1026x1026_S32x1x1024x1024_0_0_1_2 : S32x1x1026x1026.Slices ![0, 0, 1, 2] S32x1x1024x1024
  bcast_S_S32x1x1024x1024 : S_.BroadcastsInDim S32x1x1024x1024 (![] : Fin 0 → Fin S32x1x1024x1024.rank)
  bcast_S_S1 : S_.BroadcastsInDim S1 (![] : Fin 0 → Fin S1.rank)
  bcast_S_S32x1x1024 : S_.BroadcastsInDim S32x1x1024 (![] : Fin 0 → Fin S32x1x1024.rank)
  slices_S32x1x1024x1024_S32x1x1x1024_0_0_1_0 : S32x1x1024x1024.Slices ![0, 0, 1, 0] S32x1x1x1024
  shapeCasts_S32x1x1x1024_S32x1x1024 : S32x1x1x1024.ShapeCasts S32x1x1024
  slices_S32x1x1024x1024_S32x1x1024x1_0_0_0_1 : S32x1x1024x1024.Slices ![0, 0, 0, 1] S32x1x1024x1
  shapeCasts_S32x1x1024x1_S32x1x1024 : S32x1x1024x1.ShapeCasts S32x1x1024
  slices_S32x1x1024x1024_S32x1x1x1024_0_0_1022_0 : S32x1x1024x1024.Slices ![0, 0, 1022, 0] S32x1x1x1024
  scatter_S32x1x1024x1024_S1_S32x1x1024_012_3_3_0_wf : ScatterDims.WF S32x1x1024x1024 S1 S32x1x1024 [0, 1, 2] [3] [3] 0
  scatter_S32x1x1024x1024_S1_S32x1x1024_012_2_2_0_wf : ScatterDims.WF S32x1x1024x1024 S1 S32x1x1024 [0, 1, 2] [2] [2] 0

variable [Facts₀]

def scatter_S32x1x1024x1024_S1_S32x1x1024_012_3_3_0 : ScatterDims S32x1x1024x1024 S1 S32x1x1024 where
  updateWindowDims := [0, 1, 2]
  insertedWindowDims := [3]
  scatterDimsToOperandDims := [3]
  indexVectorDim := 0
  wf := scatter_S32x1x1024x1024_S1_S32x1x1024_012_3_3_0_wf
def scatter_S32x1x1024x1024_S1_S32x1x1024_012_2_2_0 : ScatterDims S32x1x1024x1024 S1 S32x1x1024 where
  updateWindowDims := [0, 1, 2]
  insertedWindowDims := [2]
  scatterDimsToOperandDims := [2]
  indexVectorDim := 0
  wf := scatter_S32x1x1024x1024_S1_S32x1x1024_012_2_2_0_wf

class Facts : Prop extends Facts₀ where

variable [Facts]
-- ==== Proof.PlaneOps.lean ====
/-
  One relaxation step on a plane of 1024 rows and 1024 columns, as operations on whole planes.

  The step takes a plane U and a right-hand side plane Fm and forms, entry by entry,
      W(i, j) = c₁ · (((U(i-1, j) + U(i+1, j)) + U(i, j-1)) + U(i, j+1)) − c₂ · Fm(i, j),
  a neighbour outside the plane counting as the value z. Then four boundary rules are applied one after the other,
  each to the result of the one before: the last column becomes z; the first row becomes a copy of the second row;
  the first column becomes a copy of the second column; the last row becomes a copy of the row above it.

  Each of the eight pieces is one operation here: four shifted copies of a plane (the row above, the row below, the
  column to the left, the column to the right, with z where the plane ends) and the four boundary rules. The second
  half of the file shows that a plane glued from a border strip and a window of another plane (two pieces joined along
  one axis, each piece a constant strip or a window of the plane) is one of these operations.
-/
import Idealize.ShloMosaic.Lib.Pipeline.Value
import Idealize.ShloMosaic.Lib.ValueIdx
import Idealize.ShloMosaic.PureOps.Vector

noncomputable section

namespace Cert.Jacobi

open Idealize.ShloMosaic Idealize.ShloMosaic.ValueIdx

/-- The plane: 1024 rows of 1024 entries. -/
abbrev Pl : Shape := ⟨2, ![1024, 1024]⟩
/-- One row. -/
abbrev Row1 : Shape := ⟨2, ![1, 1024]⟩
/-- One column. -/
abbrev Col1 : Shape := ⟨2, ![1024, 1]⟩
/-- All rows but one. -/
abbrev Rows1023 : Shape := ⟨2, ![1023, 1024]⟩
/-- All columns but one. -/
abbrev Cols1023 : Shape := ⟨2, ![1024, 1023]⟩

/-- The entry in row i and column j. Every use below has both coordinates inside the plane; a coordinate past the end
    is cut back to the last one so that the entry exists for all naturals. -/
def at2 (i j : ℕ) : Pl.Idx := ix2 ⟨min i 1023, by omega⟩ ⟨min j 1023, by omega⟩

theorem at2_row (i j : ℕ) : ((at2 i j) 0).val = min i 1023 := rfl
theorem at2_col (i j : ℕ) : ((at2 i j) 1).val = min j 1023 := rfl

/-- An entry named by its own coordinates. -/
theorem at2_self (k : Pl.Idx) : at2 (k 0).val (k 1).val = k := by
  have h0 := idx2_lt0 k
  have h1 := idx2_lt1 k
  funext a
  apply Fin.ext
  match a with
  | ⟨0, _⟩ => show min (k 0).val 1023 = (k 0).val; omega
  | ⟨1, _⟩ => show min (k 1).val 1023 = (k 1).val; omega

section Ops
variable {α : Type}

/-- The plane moved one row down: entry (i, j) is X(i-1, j), and z in the first row. -/
def rowAbove (z : α) (X : Pl.Idx → α) : Pl.Idx → α :=
  fun k => if (k 0).val = 0 then z else X (at2 ((k 0).val - 1) (k 1).val)

/-- The plane moved one row up: entry (i, j) is X(i+1, j), and z in the last row. -/
def rowBelow (z : α) (X : Pl.Idx → α) : Pl.Idx → α :=
  fun k => if (k 0).val = 1023 then z else X (at2 ((k 0).val + 1) (k 1).val)

/-- The plane moved one column right: entry (i, j) is X(i, j-1), and z in the first column. -/
def colLeft (z : α) (X : Pl.Idx → α) : Pl.Idx → α :=
  fun k => if (k 1).val = 0 then z else X (at2 (k 0).val ((k 1).val - 1))

/-- The plane moved one column left: entry (i, j) is X(i, j+1), and z in the last column. -/
def colRight (z : α) (X : Pl.Idx → α) : Pl.Idx → α :=
  fun k => if (k 1).val = 1023 then z else X (at2 (k 0).val ((k 1).val + 1))

/-- The last column set to z. -/
def lastColTo (z : α) (X : Pl.Idx → α) : Pl.Idx → α :=
  fun k => if (k 1).val = 1023 then z else X k

/-- The first row replaced by the second. -/
def topFromSecond (X : Pl.Idx → α) : Pl.Idx → α :=
  fun k => if (k 0).val = 0 then X (at2 1 (k 1).val) else X k

/-- The first column replaced by the second. -/
def leftFromSecond (X : Pl.Idx → α) : Pl.Idx → α :=
  fun k => if (k 1).val = 0 then X (at2 (k 0).val 1) else X k

/-- The last row replaced by the row above it. -/
def bottomFromAbove (X : Pl.Idx → α) : Pl.Idx → α :=
  fun k => if (k 0).val = 1023 then X (at2 1022 (k 1).val) else X k

/-! ## Two pieces joined along an axis -/

/-- A row of z on top of the first 1023 rows of X is X moved one row down. -/
theorem join_rowAbove (z : α) (X : Pl.Idx → α) (hs : Pl.Slices ![0, 0] Rows1023)
    (hc : Shape.Concatenates [Row1, Rows1023] Pl 0) :
    concatenate Pl 0 [⟨Row1, broadcast Row1 z⟩, ⟨Rows1023, extractStridedSlice Rows1023 ![0, 0] X hs⟩] hc = rowAbove z X := by
  funext k
  have h0 := idx2_lt0 k
  have h1 := idx2_lt1 k
  unfold rowAbove
  by_cases h : (k 0).val = 0
  · rw [if_pos h]
    exact concatenate_pair_apply_left 0 _ _ hc k rfl (ix2 ⟨0, by omega⟩ (k 1)) (fun b => match b with
      | ⟨0, _⟩ => by show 0 = (k 0).val; omega
      | ⟨1, _⟩ => rfl)
  · rw [if_neg h]
    refine (concatenate_pair_apply_right 0 _ _ hc k rfl rfl (ix2 ⟨(k 0).val - 1, by omega⟩ (k 1)) (fun b hb => match b, hb with
      | ⟨0, _⟩, hb => absurd rfl hb
      | ⟨1, _⟩, _ => rfl) (by show (k 0).val - 1 + 1 = (k 0).val; omega)).trans ?_
    exact extractStridedSlice_apply _ X hs _ (at2 ((k 0).val - 1) (k 1).val) (fun a => match a with
      | ⟨0, _⟩ => by show min ((k 0).val - 1) 1023 = 0 + ((k 0).val - 1); omega
      | ⟨1, _⟩ => by show min (k 1).val 1023 = 0 + (k 1).val; omega)

/-- The last 1023 rows of X on top of a row of z is X moved one row up. -/
theorem join_rowBelow (z : α) (X : Pl.Idx → α) (hs : Pl.Slices ![1, 0] Rows1023)
    (hc : Shape.Concatenates [Rows1023, Row1] Pl 0) :
    concatenate Pl 0 [⟨Rows1023, extractStridedSlice Rows1023 ![1, 0] X hs⟩, ⟨Row1, broadcast Row1 z⟩] hc = rowBelow z X := by
  funext k
  have h0 := idx2_lt0 k
  have h1 := idx2_lt1 k
  unfold rowBelow
  by_cases h : (k 0).val = 1023
  · rw [if_pos h]
    exact concatenate_pair_apply_right 0 _ _ hc k rfl rfl (ix2 ⟨0, by omega⟩ (k 1)) (fun b hb => match b, hb with
      | ⟨0, _⟩, hb => absurd rfl hb
      | ⟨1, _⟩, _ => rfl) (by show 0 + 1023 = (k 0).val; omega)
  · rw [if_neg h]
    refine (concatenate_pair_apply_left 0 _ _ hc k rfl (ix2 ⟨(k 0).val, by omega⟩ (k 1)) (fun b => match b with
      | ⟨0, _⟩ => rfl
      | ⟨1, _⟩ => rfl)).trans ?_
    exact extractStridedSlice_apply _ X hs _ (at2 ((k 0).val + 1) (k 1).val) (fun a => match a with
      | ⟨0, _⟩ => by show min ((k 0).val + 1) 1023 = 1 + (k 0).val; omega
      | ⟨1, _⟩ => by show min (k 1).val 1023 = 0 + (k 1).val; omega)

/-- A column of z to the left of the first 1023 columns of X is X moved one column right. -/
theorem join_colLeft (z : α) (X : Pl.Idx → α) (hs : Pl.Slices ![0, 0] Cols1023)
    (hc : Shape.Concatenates [Col1, Cols1023] Pl 1) :
    concatenate Pl 1 [⟨Col1, broadcast Col1 z⟩, ⟨Cols1023, extractStridedSlice Cols1023 ![0, 0] X hs⟩] hc = colLeft z X := by
  funext k
  have h0 := idx2_lt0 k
  have h1 := idx2_lt1 k
  unfold colLeft
  by_cases h : (k 1).val = 0
  · rw [if_pos h]
    exact concatenate_pair_apply_left 1 _ _ hc k rfl (ix2 (k 0) ⟨0, by omega⟩) (fun b => match b with
      | ⟨0, _⟩ => rfl
      | ⟨1, _⟩ => by show 0 = (k 1).val; omega)
  · rw [if_neg h]
    refine (concatenate_pair_apply_right 1 _ _ hc k rfl rfl (ix2 (k 0) ⟨(k 1).val - 1, by omega⟩) (fun b hb => match b, hb with
      | ⟨0, _⟩, _ => rfl
      | ⟨1, _⟩, hb => absurd rfl hb) (by show (k 1).val - 1 + 1 = (k 1).val; omega)).trans ?_
    exact extractStridedSlice_apply _ X hs _ (at2 (k 0).val ((k 1).val - 1)) (fun a => match a with
      | ⟨0, _⟩ => by show min (k 0).val 1023 = 0 + (k 0).val; omega
      | ⟨1, _⟩ => by show min ((k 1).val - 1) 1023 = 0 + ((k 1).val - 1); omega)

/-- The last 1023 columns of X to the left of a column of z is X moved one column left. -/
theorem join_colRight (z : α) (X : Pl.Idx → α) (hs : Pl.Slices ![0, 1] Cols1023)
    (hc : Shape.Concatenates [Cols1023, Col1] Pl 1) :
    concatenate Pl 1 [⟨Cols1023, extractStridedSlice Cols1023 ![0, 1] X hs⟩, ⟨Col1, broadcast Col1 z⟩] hc = colRight z X := by
  funext k
  have h0 := idx2_lt0 k
  have h1 := idx2_lt1 k
  unfold colRight
  by_cases h : (k 1).val = 1023
  · rw [if_pos h]
    exact concatenate_pair_apply_right 1 _ _ hc k rfl rfl (ix2 (k 0) ⟨0, by omega⟩) (fun b hb => match b, hb with
      | ⟨0, _⟩, _ => rfl
      | ⟨1, _⟩, hb => absurd rfl hb) (by show 0 + 1023 = (k 1).val; omega)
  · rw [if_neg h]
    refine (concatenate_pair_apply_left 1 _ _ hc k rfl (ix2 (k 0) ⟨(k 1).val, by omega⟩) (fun b => match b with
      | ⟨0, _⟩ => rfl
      | ⟨1, _⟩ => rfl)).trans ?_
    exact extractStridedSlice_apply _ X hs _ (at2 (k 0).val ((k 1).val + 1)) (fun a => match a with
      | ⟨0, _⟩ => by show min (k 0).val 1023 = 0 + (k 0).val; omega
      | ⟨1, _⟩ => by show min ((k 1).val + 1) 1023 = 1 + (k 1).val; omega)

/-- The first 1023 columns of X followed by a column of z is X with its last column set to z. -/
theorem join_lastColTo (z : α) (X : Pl.Idx → α) (hs : Pl.Slices ![0, 0] Cols1023)
    (hc : Shape.Concatenates [Cols1023, Col1] Pl 1) :
    concatenate Pl 1 [⟨Cols1023, extractStridedSlice Cols1023 ![0, 0] X hs⟩, ⟨Col1, broadcast Col1 z⟩] hc = lastColTo z X := by
  funext k
  have h0 := idx2_lt0 k
  have h1 := idx2_lt1 k
  unfold lastColTo
  by_cases h : (k 1).val = 1023
  · rw [if_pos h]
    exact concatenate_pair_apply_right 1 _ _ hc k rfl rfl (ix2 (k 0) ⟨0, by omega⟩) (fun b hb => match b, hb with
      | ⟨0, _⟩, _ => rfl
      | ⟨1, _⟩, hb => absurd rfl hb) (by show 0 + 1023 = (k 1).val; omega)
  · rw [if_neg h]
    refine (concatenate_pair_apply_left 1 _ _ hc k rfl (ix2 (k 0) ⟨(k 1).val, by omega⟩) (fun b => match b with
      | ⟨0, _⟩ => rfl
      | ⟨1, _⟩ => rfl)).trans ?_
    exact extractStridedSlice_apply _ X hs _ k (fun a => match a with
      | ⟨0, _⟩ => by show (k 0).val = 0 + (k 0).val; omega
      | ⟨1, _⟩ => by show (k 1).val = 0 + (k 1).val; omega)

/-- The second row of X on top of the last 1023 rows of X is X with its first row replaced by its second. -/
theorem join_topFromSecond (X : Pl.Idx → α) (hs₁ : Pl.Slices ![1, 0] Row1) (hs₂ : Pl.Slices ![1, 0] Rows1023)
    (hc : Shape.Concatenates [Row1, Rows1023] Pl 0) :
    concatenate Pl 0 [⟨Row1, extractStridedSlice Row1 ![1, 0] X hs₁⟩, ⟨Rows1023, extractStridedSlice Rows1023 ![1, 0] X hs₂⟩] hc
      = topFromSecond X := by
  funext k
  have h0 := idx2_lt0 k
  have h1 := idx2_lt1 k
  unfold topFromSecond
  by_cases h : (k 0).val = 0
  · rw [if_pos h]
    refine (concatenate_pair_apply_left 0 _ _ hc k rfl (ix2 ⟨0, by omega⟩ (k 1)) (fun b => match b with
      | ⟨0, _⟩ => by show 0 = (k 0).val; omega
      | ⟨1, _⟩ => rfl)).trans ?_
    exact extractStridedSlice_apply _ X hs₁ _ (at2 1 (k 1).val) (fun a => match a with
      | ⟨0, _⟩ => by show min 1 1023 = 1 + 0; omega
      | ⟨1, _⟩ => by show min (k 1).val 1023 = 0 + (k 1).val; omega)
  · rw [if_neg h]
    refine (concatenate_pair_apply_right 0 _ _ hc k rfl rfl (ix2 ⟨(k 0).val - 1, by omega⟩ (k 1)) (fun b hb => match b, hb with
      | ⟨0, _⟩, hb => absurd rfl hb
      | ⟨1, _⟩, _ => rfl) (by show (k 0).val - 1 + 1 = (k 0).val; omega)).trans ?_
    exact extractStridedSlice_apply _ X hs₂ _ k (fun a => match a with
      | ⟨0, _⟩ => by show (k 0).val = 1 + ((k 0).val - 1); omega
      | ⟨1, _⟩ => by show (k 1).val = 0 + (k 1).val; omega)

/-- The second column of X followed by the last 1023 columns of X is X with its first column replaced by its second. -/
theorem join_leftFromSecond (X : Pl.Idx → α) (hs₁ : Pl.Slices ![0, 1] Col1) (hs₂ : Pl.Slices ![0, 1] Cols1023)
    (hc : Shape.Concatenates [Col1, Cols1023] Pl 1) :
    concatenate Pl 1 [⟨Col1, extractStridedSlice Col1 ![0, 1] X hs₁⟩, ⟨Cols1023, extractStridedSlice Cols1023 ![0, 1] X hs₂⟩] hc
      = leftFromSecond X := by
  funext k
  have h0 := idx2_lt0 k
  have h1 := idx2_lt1 k
  unfold leftFromSecond
  by_cases h : (k 1).val = 0
  · rw [if_pos h]
    refine (concatenate_pair_apply_left 1 _ _ hc k rfl (ix2 (k 0) ⟨0, by omega⟩) (fun b => match b with
      | ⟨0, _⟩ => rfl
      | ⟨1, _⟩ => by show 0 = (k 1).val; omega)).trans ?_
    exact extractStridedSlice_apply _ X hs₁ _ (at2 (k 0).val 1) (fun a => match a with
      | ⟨0, _⟩ => by show min (k 0).val 1023 = 0 + (k 0).val; omega
      | ⟨1, _⟩ => by show min 1 1023 = 1 + 0; omega)
  · rw [if_neg h]
    refine (concatenate_pair_apply_right 1 _ _ hc k rfl rfl (ix2 (k 0) ⟨(k 1).val - 1, by omega⟩) (fun b hb => match b, hb with
      | ⟨0, _⟩, _ => rfl
      | ⟨1, _⟩, hb => absurd rfl hb) (by show (k 1).val - 1 + 1 = (k 1).val; omega)).trans ?_
    exact extractStridedSlice_apply _ X hs₂ _ k (fun a => match a with
      | ⟨0, _⟩ => by show (k 0).val = 0 + (k 0).val; omega
      | ⟨1, _⟩ => by show (k 1).val = 1 + ((k 1).val - 1); omega)

/-- The first 1023 rows of X on top of row 1022 of X is X with its last row replaced by the row above it. -/
theorem join_bottomFromAbove (X : Pl.Idx → α) (hs₁ : Pl.Slices ![0, 0] Rows1023) (hs₂ : Pl.Slices ![1022, 0] Row1)
    (hc : Shape.Concatenates [Rows1023, Row1] Pl 0) :
    concatenate Pl 0 [⟨Rows1023, extractStridedSlice Rows1023 ![0, 0] X hs₁⟩, ⟨Row1, extractStridedSlice Row1 ![1022, 0] X hs₂⟩] hc
      = bottomFromAbove X := by
  funext k
  have h0 := idx2_lt0 k
  have h1 := idx2_lt1 k
  unfold bottomFromAbove
  by_cases h : (k 0).val = 1023
  · rw [if_pos h]
    refine (concatenate_pair_apply_right 0 _ _ hc k rfl rfl (ix2 ⟨0, by omega⟩ (k 1)) (fun b hb => match b, hb with
      | ⟨0, _⟩, hb => absurd rfl hb
      | ⟨1, _⟩, _ => rfl) (by show 0 + 1023 = (k 0).val; omega)).trans ?_
    exact extractStridedSlice_apply _ X hs₂ _ (at2 1022 (k 1).val) (fun a => match a with
      | ⟨0, _⟩ => by show min 1022 1023 = 1022 + 0; omega
      | ⟨1, _⟩ => by show min (k 1).val 1023 = 0 + (k 1).val; omega)
  · rw [if_neg h]
    refine (concatenate_pair_apply_left 0 _ _ hc k rfl (ix2 ⟨(k 0).val, by omega⟩ (k 1)) (fun b => match b with
      | ⟨0, _⟩ => rfl
      | ⟨1, _⟩ => rfl)).trans ?_
    exact extractStridedSlice_apply _ X hs₁ _ k (fun a => match a with
      | ⟨0, _⟩ => by show (k 0).val = 0 + (k 0).val; omega
      | ⟨1, _⟩ => by show (k 1).val = 0 + (k 1).val; omega)

end Ops

/-! ## The step -/

section Step
variable {F : FTy → Type} [FloatOps F]

/-- One relaxation step on a plane U with right-hand side Fm: a quarter of the sum of the four neighbours (zero
    outside the plane) less 2⁻²² times the right-hand side, then the four boundary rules in their order. The three
    numbers are kept as the float words the programs spell: 0, 1/4 and 2⁻²². -/
def relaxed (U Fm : FVec F Pl .f32) : FVec F Pl .f32 :=
  bottomFromAbove (leftFromSecond (topFromSecond (lastColTo (FloatOps.ofBits .f32 0x00000000#32)
    (subf
      (mulf (broadcast Pl (FloatOps.ofBits .f32 0x3E800000#32))
        (addf (addf (addf (rowAbove (FloatOps.ofBits .f32 0x00000000#32) U) (rowBelow (FloatOps.ofBits .f32 0x00000000#32) U))
          (colLeft (FloatOps.ofBits .f32 0x00000000#32) U)) (colRight (FloatOps.ofBits .f32 0x00000000#32) U)))
      (mulf (broadcast Pl (FloatOps.ofBits .f32 0x34800000#32)) Fm)))))

/-- The stack of 32 × 1 planes. -/
abbrev Stack : Shape := ⟨4, ![32, 1, 1024, 1024]⟩

/-- Entry (i, j) of plane (b, e) of the stack. -/
abbrev stackAt (b : Fin 32) (e : Fin 1) (i j : Fin 1024) : Stack.Idx := ix4 b e i j

/-- Plane (b, e) of a stack. -/
def planeOf {α : Type} (X : Stack.Idx → α) (b : Fin 32) (e : Fin 1) : Pl.Idx → α := fun k => X (stackAt b e (k 0) (k 1))

/-- The step applied to every plane of the stack: plane (b, e) of the result is the step on plane (b, e) of u with plane
    (b, e) of f as right-hand side. -/
def relaxedAll (f u : FVec F Stack .f32) : FVec F Stack .f32 :=
  fun k => relaxed (planeOf u (k 0) (k 1)) (planeOf f (k 0) (k 1)) (ix2 (k 2) (k 3))

end Step

end Cert.Jacobi

end
-- ==== Proof.KernelValue.lean ====
/-
  What the kernel leaves in its result array: the relaxation step applied to every plane.

  The kernel visits the 32 planes of the stack one per grid point. At point t it loads plane t of the right-hand side f
  and plane t of u, forms the four shifted copies of the u-plane by joining a strip of zeros to a window of it, adds them,
  scales, subtracts the scaled right-hand side, applies the four boundary rules (again as joins of windows), and stores
  the plane. So the body's stored value is the step of PlaneOps on the two loaded planes (payload_eq); the block the grid
  point writes back is block t of "the step on every plane" (flushed_eq); the 32 blocks cover the array (covered); hence
  the array ends as the step on every plane (final, run).
-/
import proofs.«136769_j22479858827489_1_alg».proof.Proof.Gen.KernelIdeal.Value
import proofs.«136769_j22479858827489_1_alg».proof.Proof.PlaneOps

set_option maxRecDepth 16384

noncomputable section

namespace Cert.KernelIdeal.Plane

open Cert.KernelIdeal Cert.KernelIdeal.Gen Cert.Jacobi Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The value the body stores, from the u-block v0 and the f-block v2 it loaded: the step on the two planes. -/
theorem payload_eq (v0 v2 : Vec F S1x1x1024x1024 .f32) :
    k0_pay1 v0 v2 = shapeCast S1x1x1024x1024
      (relaxed (F := F) (shapeCast S1024x1024 v0 shapeCasts_S1x1x1024x1024_S1024x1024)
        (shapeCast S1024x1024 v2 shapeCasts_S1x1x1024x1024_S1024x1024)) shapeCasts_S1024x1024_S1x1x1024x1024 := by
  unfold k0_pay1 relaxed
  dsimp only
  rw [join_rowAbove, join_rowBelow, join_colLeft, join_colRight, join_lastColTo, join_topFromSecond, join_leftFromSecond,
    join_bottomFromAbove]

theorem hz : (![0, 0, 0, 0] : Fin 4 → Nat) = fun _ => 0 := funext fun a => by fin_cases a <;> rfl

/-- The index maps over the 32 grid points: point t's block of each window is plane t. -/
theorem idx_facts : ∀ t : Fin cfg0.N,
    win0_2.index t (0 : Fin 4) = t.val ∧ win0_2.index t (1 : Fin 4) = 0 ∧ win0_2.index t (2 : Fin 4) = 0 ∧ win0_2.index t (3 : Fin 4) = 0
    ∧ win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- A shape cast of a plane to a block of one plane, read at an entry. -/
theorem cast_block_apply {α : Type} (X : S1024x1024.Idx → α) (h : S1024x1024.ShapeCasts S1x1x1024x1024) (y : S1x1x1024x1024.Idx) :
    shapeCast S1x1x1024x1024 X h y = X (ix2 (y 2) (y 3)) := by
  have h0 : (y 0).val < 1 := (y 0).isLt
  have h1 : (y 1).val < 1 := (y 1).isLt
  refine shapeCast_apply X h y (ix2 (y 2) (y 3)) ?_
  simp only [Shape.rowMajor_val_two, Shape.rowMajor_val_four]
  show (y 2).val * 1024 + (y 3).val = (((y 0).val * 1 + (y 1).val) * 1024 + (y 2).val) * 1024 + (y 3).val
  omega

/-- A shape cast of a block of one plane to the plane, read at an entry. -/
theorem cast_plane_apply {α : Type} (X : S1x1x1024x1024.Idx → α) (h : S1x1x1024x1024.ShapeCasts S1024x1024) (k : S1024x1024.Idx) :
    shapeCast S1024x1024 X h k = X (ix4 (⟨0, Nat.one_pos⟩ : Fin 1) (⟨0, Nat.one_pos⟩ : Fin 1) (k 0) (k 1)) := by
  refine shapeCast_apply X h k (ix4 (⟨0, Nat.one_pos⟩ : Fin 1) (⟨0, Nat.one_pos⟩ : Fin 1) (k 0) (k 1)) ?_
  simp only [Shape.rowMajor_val_two, Shape.rowMajor_val_four]
  show (((0 * 1 + 0) * 1024 + (k 0).val) * 1024 + (k 1).val) = (k 0).val * 1024 + (k 1).val
  omega

/-- The body's stored value on blocks that are plane b of f and plane b of u, read at an entry of the block: the step on
    every plane, read at that entry of plane b. -/
theorem block_step (x0 x1 : Vec F S1x1x1024x1024 .f32) (f u : FVec F Stack .f32) (b : Fin 32)
    (hx0 : ∀ i j : Fin 1024, x0 (ix4 (⟨0, Nat.one_pos⟩ : Fin 1) (⟨0, Nat.one_pos⟩ : Fin 1) i j) = f (stackAt b ⟨0, Nat.one_pos⟩ i j))
    (hx1 : ∀ i j : Fin 1024, x1 (ix4 (⟨0, Nat.one_pos⟩ : Fin 1) (⟨0, Nat.one_pos⟩ : Fin 1) i j) = u (stackAt b ⟨0, Nat.one_pos⟩ i j))
    (y : S1x1x1024x1024.Idx) :
    shapeCast S1x1x1024x1024
      (relaxed (F := F) (shapeCast S1024x1024 x1 shapeCasts_S1x1x1024x1024_S1024x1024)
        (shapeCast S1024x1024 x0 shapeCasts_S1x1x1024x1024_S1024x1024)) shapeCasts_S1024x1024_S1x1x1024x1024 y
      = relaxedAll (F := F) f u (stackAt b ⟨0, Nat.one_pos⟩ (y 2) (y 3)) := by
  rw [cast_block_apply]
  have hA : shapeCast S1024x1024 x1 shapeCasts_S1x1x1024x1024_S1024x1024 = planeOf u b ⟨0, Nat.one_pos⟩ :=
    funext fun k => (cast_plane_apply x1 _ k).trans (hx1 (k 0) (k 1))
  have hB : shapeCast S1024x1024 x0 shapeCasts_S1x1x1024x1024_S1024x1024 = planeOf f b ⟨0, Nat.one_pos⟩ :=
    funext fun k => (cast_plane_apply x0 _ k).trans (hx0 (k 0) (k 1))
  rw [hA, hB]
  rfl

/-- What grid point t writes back is block t of the step on every plane of the argument arrays. -/
theorem flushed_eq (c : Dev nD) (t : Fin cfg0.N) :
    (dats m 0 c).flushed 2 t
      = ((cfg0.win 2).blk t).view.read (Elt F) (relaxedAll (F := F) (V m c main_arg0) (V m c main_arg3)) := by
  rw [Value.flushed2]
  unfold out0_2
  rw [View.canon_unit_zero hz]
  simp only [View.ld_unit_zero (S := S1x1x1024x1024) hz]
  rw [payload_eq]
  obtain ⟨e0, e1, e2, e3, a0, a1, a2, a3, b0, b1, b2, b3⟩ := idx_facts t
  have ht : t.val < 32 := t.isLt
  funext y
  have hy0 : (y 0).val < 1 := (y 0).isLt
  have hy1 : (y 1).val < 1 := (y 1).isLt
  have hy2 : (y 2).val < 1024 := (y 2).isLt
  have hy3 : (y 3).val < 1024 := (y 3).isLt
  show shapeCast S1x1x1024x1024
      (relaxed (F := F) (shapeCast S1024x1024 (iblk m c 1 t) shapeCasts_S1x1x1024x1024_S1024x1024)
        (shapeCast S1024x1024 (iblk m c 0 t) shapeCasts_S1x1x1024x1024_S1024x1024)) shapeCasts_S1024x1024_S1x1x1024x1024 y
    = relaxedAll (F := F) (V m c main_arg0) (V m c main_arg3) (((cfg0.win 2).blk t).view.emb y)
  refine (block_step (iblk m c 0 t) (iblk m c 1 t) (V m c main_arg0) (V m c main_arg3) ⟨t.val, ht⟩ ?_ ?_ y).trans ?_
  · intro i j
    show V m c main_arg0 (((cfg0.win 0).blk t).view.emb (ix4 (⟨0, Nat.one_pos⟩ : Fin 1) (⟨0, Nat.one_pos⟩ : Fin 1) i j)) = _
    refine congrArg (V m c main_arg0) (funext fun a => Fin.ext ?_)
    match a with
    | ⟨0, _⟩ => show win0_0.index t (0 : Fin 4) * 1 + 1 * 0 = t.val; omega
    | ⟨1, _⟩ => show win0_0.index t (1 : Fin 4) * 1 + 1 * 0 = 0; omega
    | ⟨2, _⟩ => show win0_0.index t (2 : Fin 4) * 1024 + 1 * i.val = i.val; omega
    | ⟨3, _⟩ => show win0_0.index t (3 : Fin 4) * 1024 + 1 * j.val = j.val; omega
  · intro i j
    show V m c main_arg3 (((cfg0.win 1).blk t).view.emb (ix4 (⟨0, Nat.one_pos⟩ : Fin 1) (⟨0, Nat.one_pos⟩ : Fin 1) i j)) = _
    refine congrArg (V m c main_arg3) (funext fun a => Fin.ext ?_)
    match a with
    | ⟨0, _⟩ => show win0_1.index t (0 : Fin 4) * 1 + 1 * 0 = t.val; omega
    | ⟨1, _⟩ => show win0_1.index t (1 : Fin 4) * 1 + 1 * 0 = 0; omega
    | ⟨2, _⟩ => show win0_1.index t (2 : Fin 4) * 1024 + 1 * i.val = i.val; omega
    | ⟨3, _⟩ => show win0_1.index t (3 : Fin 4) * 1024 + 1 * j.val = j.val; omega
  · refine congrArg (relaxedAll (F := F) (V m c main_arg0) (V m c main_arg3)) (funext fun a => Fin.ext ?_)
    match a with
    | ⟨0, _⟩ => show t.val = win0_2.index t (0 : Fin 4) * 1 + 1 * (y 0).val; omega
    | ⟨1, _⟩ => show 0 = win0_2.index t (1 : Fin 4) * 1 + 1 * (y 1).val; omega
    | ⟨2, _⟩ => show (y 2).val = win0_2.index t (2 : Fin 4) * 1024 + 1 * (y 2).val; omega
    | ⟨3, _⟩ => show (y 3).val = win0_2.index t (3 : Fin 4) * 1024 + 1 * (y 3).val; omega

/-- An entry of the array is in point t's block exactly when each coordinate is in the block's range on its axis. -/
theorem mem_blk (t : Fin cfg0.N) (i : S32x1x1024x1024.Idx) :
    i ∈ ((cfg0.win 2).blk t).view.set ↔ ∀ a : Fin 4, win0_2.index t a * S1x1x1024x1024.size a ≤ (i a).val
      ∧ (i a).val < win0_2.index t a * S1x1x1024x1024.size a + S1x1x1024x1024.size a := by
  show i ∈ ((View.whole main_v0).slice (win0_2.rect t)).set ↔ _
  rw [View.set_slice_whole, Rect.mem_set_unit]
  exact Iff.rfl

/-- Every entry of the result array lies in the block of the grid point numbered by its plane. -/
theorem covered (i : S32x1x1024x1024.Idx) :
    ∃ t : Fin cfg0.N, (cfg0.win 2).flush t = true ∧ i ∈ ((cfg0.win 2).blk t).view.set := by
  have h0 : (i 0).val < 32 := (i 0).isLt
  have h1 : (i 1).val < 1 := (i 1).isLt
  have h2 : (i 2).val < 1024 := (i 2).isLt
  have h3 : (i 3).val < 1024 := (i 3).isLt
  have hN : cfg0.N = 32 := N_0
  let t : Fin cfg0.N := ⟨(i 0).val, by omega⟩
  obtain ⟨e0, e1, e2, e3, -⟩ := idx_facts t
  have e0' : win0_2.index t (0 : Fin 4) = (i 0).val := e0
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 1024 ≤ (i 2).val ∧ (i 2).val < win0_2.index t (2 : Fin 4) * 1024 + 1024; omega
  | ⟨3, _⟩ => show win0_2.index t (3 : Fin 4) * 1024 ≤ (i 3).val ∧ (i 3).val < win0_2.index t (3 : Fin 4) * 1024 + 1024; omega

/-- The result array after the run: the step on every plane of f and u as the region finds them. -/
theorem final (c : Dev nD) :
    (dats m 0 c).arrAt 2 cfg0.N
      = relaxedAll (F := F) (m ((c : Thread nD τ).loc main_arg0)) (m ((c : Thread nD τ).loc main_arg3)) :=
  (dats m 0 c).arrAt_eq_of_cover 2 (relaxedAll (F := F) (V m c main_arg0) (V m c main_arg3))
    (fun t _ => flushed_eq m c t) covered

/-- The kernel's run: the result array ends as the step on every plane of the arguments, which are unchanged. -/
theorem run : θ_run defs (onTc (τ := τ) (main (F := F))) ⟨m, fun _ => 0, ρ⟩ fun r => ∀ c : Dev nD,
      r.2.mem ((c : Thread nD τ).loc main_v0)
        = relaxedAll (F := F) (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Plane

end
-- ==== Proof.LibScatterSet.lean ====
/-
  The host's replacing scatter read at an entry, for any dimension numbers.

  The host's scatter whose body returns the update's element is a left fold over the update indices in row-major order:
  each step sends its update index to an operand index (the window's start plus the window coordinate, when that is
  inside the operand on every axis) and replaces the entry there by the update's element; an update whose operand index
  falls outside the operand is dropped. So where several updates land on one entry the LATER one in row-major order
  stays. Read at an entry i this gives two cases: either some update lands at i, and then the result at i is the element
  of the LAST update (in row-major order) that lands there; or no update lands at i, and the result at i is the
  operand's entry.

  The road: first a fold over any list whose step replaces the value at the step's target. By induction from the right,
  its value at i is the value of an element n with target i in a splitting l = l₁ ++ n :: l₂ where nothing in l₂ has
  target i, or the initial value at i when nothing in l has target i. The list of all positions below a bound is strictly
  increasing and holds every position, so in such a splitting of it every position above n lies in l₂; that turns the
  splitting into "no later position has target i".
-/
import Idealize.ShloMosaic.PureOps.ShapeOps
import Mathlib.Data.List.Sort

namespace Idealize.ShloMosaic.ScatterSet

open Idealize.ShloMosaic

/-- A left fold whose step, at an element with target i, replaces the value at i by that element's value, and at any
    other element leaves the value at i alone: its value at i is the value of the last element of the list with
    target i, or the initial value at i when the list has no such element. -/
theorem foldl_set_cases {ι I α : Type} (tgt : ι → Option I) (val : ι → α) (i : I)
    (step : (I → α) → ι → (I → α))
    (hhit : ∀ r n, tgt n = some i → step r n i = val n)
    (hmiss : ∀ r n, tgt n ≠ some i → step r n i = r i)
    (x : I → α) (l : List ι) :
    (∃ l₁ n l₂, l = l₁ ++ n :: l₂ ∧ tgt n = some i ∧ (∀ m ∈ l₂, tgt m ≠ some i) ∧ l.foldl step x i = val n)
      ∨ ((∀ m ∈ l, tgt m ≠ some i) ∧ l.foldl step x i = x i) := by
  induction l using List.reverseRecOn with
  | nil => exact Or.inr ⟨by simp, rfl⟩
  | append_singleton l n ih =>
    rw [List.foldl_append, List.foldl_cons, List.foldl_nil]
    by_cases hn : tgt n = some i
    · exact Or.inl ⟨l, n, [], rfl, hn, by simp, hhit _ n hn⟩
    · rw [hmiss _ n hn]
      rcases ih with ⟨l₁, m, l₂, hl, hm, hl₂, hv⟩ | ⟨hno, hv⟩
      · refine Or.inl ⟨l₁, m, l₂ ++ [n], by rw [hl]; simp, hm, ?_, hv⟩
        intro k hk
        rcases List.mem_append.1 hk with hk | hk
        · exact hl₂ k hk
        · rw [List.mem_singleton.1 hk]; exact hn
      · refine Or.inr ⟨?_, hv⟩
        intro k hk
        rcases List.mem_append.1 hk with hk | hk
        · exact hno k hk
        · rw [List.mem_singleton.1 hk]; exact hn

/-- The same fold over all positions below N, in increasing order: its value at i is the value of the LAST position
    with target i, or the initial value at i when no position has target i. -/
theorem foldl_finRange_set_cases {N : ℕ} {I α : Type} (tgt : Fin N → Option I) (val : Fin N → α) (i : I)
    (step : (I → α) → Fin N → (I → α))
    (hhit : ∀ r n, tgt n = some i → step r n i = val n)
    (hmiss : ∀ r n, tgt n ≠ some i → step r n i = r i)
    (x : I → α) :
    (∃ n : Fin N, tgt n = some i ∧ (∀ n' : Fin N, n < n' → tgt n' ≠ some i)
        ∧ (List.finRange N).foldl step x i = val n)
      ∨ ((∀ n : Fin N, tgt n ≠ some i) ∧ (List.finRange N).foldl step x i = x i) := by
  rcases foldl_set_cases tgt val i step hhit hmiss x (List.finRange N) with ⟨l₁, n, l₂, hl, hn, hl₂, hv⟩ | ⟨hno, hv⟩
  · refine Or.inl ⟨n, hn, ?_, hv⟩
    intro n' hlt
    have hsorted : (l₁ ++ n :: l₂).Pairwise (· < ·) := hl ▸ (List.sortedLT_finRange N).pairwise
    have hmem : n' ∈ l₁ ++ n :: l₂ := hl ▸ List.mem_finRange n'
    rcases List.mem_append.1 hmem with h | h
    · exact absurd ((List.pairwise_append.1 hsorted).2.2 n' h n (List.mem_cons_self ..)) (lt_asymm hlt)
    · rcases List.mem_cons.1 h with h | h
      · exact absurd h (ne_of_gt hlt)
      · exact hl₂ n' h
  · exact Or.inr ⟨fun n => hno n (List.mem_finRange n), hv⟩

/-- The replacing scatter read at an entry i: either some update index lands at i, and the result at i is the element
    of the last such update index in row-major order; or no update index lands at i, and the result at i is the operand's
    entry. -/
theorem scatter_set_cases {α : Type} {s si u : Shape} {w : ℕ} (d : ScatterDims s si u)
    (x : s.Idx → α) (idx : IVec si w) (upd : u.Idx → α) (i : s.Idx) :
    (∃ n : Fin u.numel, d.resultIdx? (u.rowMajor.symm n) idx = some i
        ∧ (∀ n' : Fin u.numel, n < n' → d.resultIdx? (u.rowMajor.symm n') idx ≠ some i)
        ∧ Host.scatter d (fun _ b => b) x idx upd i = upd (u.rowMajor.symm n))
    ∨ ((∀ n : Fin u.numel, d.resultIdx? (u.rowMajor.symm n) idx ≠ some i)
        ∧ Host.scatter d (fun _ b => b) x idx upd i = x i) := by
  unfold Host.scatter
  refine foldl_finRange_set_cases (fun n => d.resultIdx? (u.rowMajor.symm n) idx) (fun n => upd (u.rowMajor.symm n)) i
    _ ?_ ?_ x
  · intro r n hn
    have hn' : d.resultIdx? (u.rowMajor.symm n) idx = some i := hn
    simp only [hn', if_true]
  · intro r n hn
    have hn' : d.resultIdx? (u.rowMajor.symm n) idx ≠ some i := hn
    cases h₀ : d.resultIdx? (u.rowMajor.symm n) idx with
    | none => simp only [h₀]
    | some i₀ =>
      have hne : i ≠ i₀ := fun h => hn' (h₀.trans (congrArg some h.symm))
      simp only [h₀, if_neg hne]

end Idealize.ShloMosaic.ScatterSet
-- ==== Proof.ScatterLine.lean ====
/-
  The two replacing scatters of a line into a stack of planes, read at an entry.

  The operand is a stack of 32 × 1 planes of 1024 × 1024 entries; the updates are a stack of 32 × 1 lines of 1024
  entries; there is ONE scatter index, a single word c. With the update's three axes sent to the operand's axes
  0, 1, 2 and the index word placed on axis 3, update entry (b, e, r) lands at operand entry (b, e, r, c): the scatter
  overwrites COLUMN c of every plane with the line. With the update's axes sent to the operand's axes 0, 1, 3 and the
  index word placed on axis 2, update entry (b, e, r) lands at (b, e, c, r): the scatter overwrites ROW c of every plane.
  Different update entries land at different places, so the order of the updates does not matter, and read at an entry
  the result is the line's entry where the entry lies on the overwritten column (row), and the operand's entry elsewhere.
-/
import proofs.«136769_j22479858827489_1_alg».proof.Proof.LibScatterSet
import Idealize.ShloMosaic.Lib.ValueIdx

namespace Cert.Jacobi

open Idealize.ShloMosaic Idealize.ShloMosaic.ValueIdx

/-- The stack of planes. -/
abbrev A4 : Shape := ⟨4, ![32, 1, 1024, 1024]⟩
/-- The stack of lines. -/
abbrev U3 : Shape := ⟨3, ![32, 1, 1024]⟩
/-- The one scatter index. -/
abbrev I1 : Shape := ⟨1, ![1]⟩

/-- Entry r of line (b, e). -/
abbrev lineAt (b : Fin 32) (e : Fin 1) (r : Fin 1024) : U3.Idx := ix3 b e r

/-- An update index lands at entry i exactly when, on every axis, the window's start plus the window coordinate is
    i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have e' := congrFun (Option.some.inj e) a
      have e'' : (d.start j idx a + (d.window j a : ℤ)).toNat = (i a).val := congrArg Fin.val e'
      have ha := h a
      omega
    · intro e
      refine congrArg some (funext fun a => Fin.ext ?_)
      show (d.start j idx a + (d.window j a : ℤ)).toNat = (i a).val
      have := e a
      omega
  · rename_i h
    constructor
    · intro e; cases e
    · intro e
      exfalso
      apply h
      intro a
      have := e a
      have := (i a).isLt
      omega

/-- There is only one index into the scatter indices. -/
theorem i1_eq (p q : I1.Idx) : p = q := by
  funext a
  apply Fin.ext
  match a with
  | ⟨0, h⟩ =>
    have hp : (p ⟨0, h⟩).val < 1 := (p ⟨0, h⟩).isLt
    have hq : (q ⟨0, h⟩).val < 1 := (q ⟨0, h⟩).isLt
    omega

/-! ## A column overwritten -/

/-- The dimension numbers that put the index word on axis 3. -/
abbrev colDims (wf : ScatterDims.WF A4 I1 U3 [0, 1, 2] [3] [3] 0) : ScatterDims A4 I1 U3 :=
  { updateWindowDims := [0, 1, 2], insertedWindowDims := [3], scatterDimsToOperandDims := [3], indexVectorDim := 0, wf := wf }

section Col
variable (wf : ScatterDims.WF A4 I1 U3 [0, 1, 2] [3] [3] 0)

theorem col_start0 {w : ℕ} (j : U3.Idx) (idx : IVec I1 w) : (colDims wf).start j idx 0 = 0 := by
  have h : (0 : Fin 4) ∉ ([3] : List (Fin 4)) := by decide
  unfold ScatterDims.start; rw [dif_neg h]
theorem col_start1 {w : ℕ} (j : U3.Idx) (idx : IVec I1 w) : (colDims wf).start j idx 1 = 0 := by
  have h : (1 : Fin 4) ∉ ([3] : List (Fin 4)) := by decide
  unfold ScatterDims.start; rw [dif_neg h]
theorem col_start2 {w : ℕ} (j : U3.Idx) (idx : IVec I1 w) : (colDims wf).start j idx 2 = 0 := by
  have h : (2 : Fin 4) ∉ ([3] : List (Fin 4)) := by decide
  unfold ScatterDims.start; rw [dif_neg h]
theorem col_start3 {w : ℕ} (j : U3.Idx) (idx : IVec I1 w) : (colDims wf).start j idx 3 = (idx (ix1 0)).toInt := by
  have h : (3 : Fin 4) ∈ ([3] : List (Fin 4)) := by decide
  unfold ScatterDims.start; rw [dif_pos h]
  exact congrArg (fun p => (idx p).toInt) (i1_eq _ _)

theorem col_window0 (j : U3.Idx) : (colDims wf).window j 0 = (j 0).val := by
  have h : (0 : Fin 4) ∈ A4.kept ([3] : List (Fin 4)) := by decide
  unfold ScatterDims.window; rw [dif_pos h]; rfl
theorem col_window1 (j : U3.Idx) : (colDims wf).window j 1 = (j 1).val := by
  have h : (1 : Fin 4) ∈ A4.kept ([3] : List (Fin 4)) := by decide
  unfold ScatterDims.window; rw [dif_pos h]; rfl
theorem col_window2 (j : U3.Idx) : (colDims wf).window j 2 = (j 2).val := by
  have h : (2 : Fin 4) ∈ A4.kept ([3] : List (Fin 4)) := by decide
  unfold ScatterDims.window; rw [dif_pos h]; rfl
theorem col_window3 (j : U3.Idx) : (colDims wf).window j 3 = 0 := by
  have h : (3 : Fin 4) ∉ A4.kept ([3] : List (Fin 4)) := by decide
  unfold ScatterDims.window; rw [dif_neg h]

/-- Update entry (b, e, r) lands at (b, e, r, c), c the index word. -/
theorem col_lands {w : ℕ} (j : U3.Idx) (idx : IVec I1 w) (c : ℕ) (hidx : (idx (ix1 0)).toInt = (c : ℤ)) (k : A4.Idx) :
    (colDims wf).resultIdx? j idx = some k ↔ (j = lineAt (k 0) (k 1) (k 2) ∧ (k 3).val = c) := by
  rw [resultIdx?_eq_some_iff]
  constructor
  · intro h
    have e0 := h 0; rw [col_start0, col_window0] at e0
    have e1 := h 1; rw [col_start1, col_window1] at e1
    have e2 := h 2; rw [col_start2, col_window2] at e2
    have e3 := h 3; rw [col_start3, col_window3, hidx] at e3
    refine ⟨?_, by omega⟩
    funext a
    apply Fin.ext
    match a with
    | ⟨0, _⟩ => show (j 0).val = (k 0).val; omega
    | ⟨1, _⟩ => show (j 1).val = (k 1).val; omega
    | ⟨2, _⟩ => show (j 2).val = (k 2).val; omega
  · rintro ⟨rfl, hk⟩ a
    match a with
    | ⟨0, _⟩ => show (colDims wf).start _ idx 0 + ((colDims wf).window _ 0 : ℤ) = _; rw [col_start0, col_window0]; show (0 : ℤ) + ((k 0).val : ℤ) = ((k 0).val : ℤ); omega
    | ⟨1, _⟩ => show (colDims wf).start _ idx 1 + ((colDims wf).window _ 1 : ℤ) = _; rw [col_start1, col_window1]; show (0 : ℤ) + ((k 1).val : ℤ) = ((k 1).val : ℤ); omega
    | ⟨2, _⟩ => show (colDims wf).start _ idx 2 + ((colDims wf).window _ 2 : ℤ) = _; rw [col_start2, col_window2]; show (0 : ℤ) + ((k 2).val : ℤ) = ((k 2).val : ℤ); omega
    | ⟨3, _⟩ => show (colDims wf).start _ idx 3 + ((colDims wf).window _ 3 : ℤ) = _; rw [col_start3, col_window3, hidx]; show (c : ℤ) + ((0 : ℕ) : ℤ) = ((k 3).val : ℤ); omega

/-- The scatter that overwrites column c, read at an entry: the line's entry on column c, the operand's entry elsewhere. -/
theorem scatter_col_apply {α : Type} {w : ℕ} (x : A4.Idx → α) (idx : IVec I1 w) (upd : U3.Idx → α) (c : ℕ)
    (hidx : (idx (ix1 0)).toInt = (c : ℤ)) (k : A4.Idx) :
    Host.scatter (colDims wf) (fun _ b => b) x idx upd k = if (k 3).val = c then upd (lineAt (k 0) (k 1) (k 2)) else x k := by
  rcases ScatterSet.scatter_set_cases (colDims wf) x idx upd k with ⟨n, hn, -, hv⟩ | ⟨hno, hv⟩
  · obtain ⟨hj, hk⟩ := (col_lands wf _ idx c hidx k).1 hn
    rw [hv, hj, if_pos hk]
  · by_cases hk : (k 3).val = c
    · exfalso
      refine hno (U3.rowMajor (lineAt (k 0) (k 1) (k 2))) ?_
      rw [Equiv.symm_apply_apply]
      exact (col_lands wf _ idx c hidx k).2 ⟨rfl, hk⟩
    · rw [hv, if_neg hk]

end Col

/-! ## A row overwritten -/

/-- The dimension numbers that put the index word on axis 2. -/
abbrev rowDims (wf : ScatterDims.WF A4 I1 U3 [0, 1, 2] [2] [2] 0) : ScatterDims A4 I1 U3 :=
  { updateWindowDims := [0, 1, 2], insertedWindowDims := [2], scatterDimsToOperandDims := [2], indexVectorDim := 0, wf := wf }

section Row
variable (wf : ScatterDims.WF A4 I1 U3 [0, 1, 2] [2] [2] 0)

theorem row_start0 {w : ℕ} (j : U3.Idx) (idx : IVec I1 w) : (rowDims wf).start j idx 0 = 0 := by
  have h : (0 : Fin 4) ∉ ([2] : List (Fin 4)) := by decide
  unfold ScatterDims.start; rw [dif_neg h]
theorem row_start1 {w : ℕ} (j : U3.Idx) (idx : IVec I1 w) : (rowDims wf).start j idx 1 = 0 := by
  have h : (1 : Fin 4) ∉ ([2] : List (Fin 4)) := by decide
  unfold ScatterDims.start; rw [dif_neg h]
theorem row_start2 {w : ℕ} (j : U3.Idx) (idx : IVec I1 w) : (rowDims wf).start j idx 2 = (idx (ix1 0)).toInt := by
  have h : (2 : Fin 4) ∈ ([2] : List (Fin 4)) := by decide
  unfold ScatterDims.start; rw [dif_pos h]
  exact congrArg (fun p => (idx p).toInt) (i1_eq _ _)
theorem row_start3 {w : ℕ} (j : U3.Idx) (idx : IVec I1 w) : (rowDims wf).start j idx 3 = 0 := by
  have h : (3 : Fin 4) ∉ ([2] : List (Fin 4)) := by decide
  unfold ScatterDims.start; rw [dif_neg h]

theorem row_window0 (j : U3.Idx) : (rowDims wf).window j 0 = (j 0).val := by
  have h : (0 : Fin 4) ∈ A4.kept ([2] : List (Fin 4)) := by decide
  unfold ScatterDims.window; rw [dif_pos h]; rfl
theorem row_window1 (j : U3.Idx) : (rowDims wf).window j 1 = (j 1).val := by
  have h : (1 : Fin 4) ∈ A4.kept ([2] : List (Fin 4)) := by decide
  unfold ScatterDims.window; rw [dif_pos h]; rfl
theorem row_window2 (j : U3.Idx) : (rowDims wf).window j 2 = 0 := by
  have h : (2 : Fin 4) ∉ A4.kept ([2] : List (Fin 4)) := by decide
  unfold ScatterDims.window; rw [dif_neg h]
theorem row_window3 (j : U3.Idx) : (rowDims wf).window j 3 = (j 2).val := by
  have h : (3 : Fin 4) ∈ A4.kept ([2] : List (Fin 4)) := by decide
  unfold ScatterDims.window; rw [dif_pos h]; rfl

/-- Update entry (b, e, r) lands at (b, e, c, r), c the index word. -/
theorem row_lands {w : ℕ} (j : U3.Idx) (idx : IVec I1 w) (c : ℕ) (hidx : (idx (ix1 0)).toInt = (c : ℤ)) (k : A4.Idx) :
    (rowDims wf).resultIdx? j idx = some k ↔ (j = lineAt (k 0) (k 1) (k 3) ∧ (k 2).val = c) := by
  rw [resultIdx?_eq_some_iff]
  constructor
  · intro h
    have e0 := h 0; rw [row_start0, row_window0] at e0
    have e1 := h 1; rw [row_start1, row_window1] at e1
    have e2 := h 2; rw [row_start2, row_window2, hidx] at e2
    have e3 := h 3; rw [row_start3, row_window3] at e3
    refine ⟨?_, by omega⟩
    funext a
    apply Fin.ext
    match a with
    | ⟨0, _⟩ => show (j 0).val = (k 0).val; omega
    | ⟨1, _⟩ => show (j 1).val = (k 1).val; omega
    | ⟨2, _⟩ => show (j 2).val = (k 3).val; omega
  · rintro ⟨rfl, hk⟩ a
    match a with
    | ⟨0, _⟩ => show (rowDims wf).start _ idx 0 + ((rowDims wf).window _ 0 : ℤ) = _; rw [row_start0, row_window0]; show (0 : ℤ) + ((k 0).val : ℤ) = ((k 0).val : ℤ); omega
    | ⟨1, _⟩ => show (rowDims wf).start _ idx 1 + ((rowDims wf).window _ 1 : ℤ) = _; rw [row_start1, row_window1]; show (0 : ℤ) + ((k 1).val : ℤ) = ((k 1).val : ℤ); omega
    | ⟨2, _⟩ => show (rowDims wf).start _ idx 2 + ((rowDims wf).window _ 2 : ℤ) = _; rw [row_start2, row_window2, hidx]; show (c : ℤ) + ((0 : ℕ) : ℤ) = ((k 2).val : ℤ); omega
    | ⟨3, _⟩ => show (rowDims wf).start _ idx 3 + ((rowDims wf).window _ 3 : ℤ) = _; rw [row_start3, row_window3]; show (0 : ℤ) + ((k 3).val : ℤ) = ((k 3).val : ℤ); omega

/-- The scatter that overwrites row c, read at an entry: the line's entry on row c, the operand's entry elsewhere. -/
theorem scatter_row_apply {α : Type} {w : ℕ} (x : A4.Idx → α) (idx : IVec I1 w) (upd : U3.Idx → α) (c : ℕ)
    (hidx : (idx (ix1 0)).toInt = (c : ℤ)) (k : A4.Idx) :
    Host.scatter (rowDims wf) (fun _ b => b) x idx upd k = if (k 2).val = c then upd (lineAt (k 0) (k 1) (k 3)) else x k := by
  rcases ScatterSet.scatter_set_cases (rowDims wf) x idx upd k with ⟨n, hn, -, hv⟩ | ⟨hno, hv⟩
  · obtain ⟨hj, hk⟩ := (row_lands wf _ idx c hidx k).1 hn
    rw [hv, hj, if_pos hk]
  · by_cases hk : (k 2).val = c
    · exfalso
      refine hno (U3.rowMajor (lineAt (k 0) (k 1) (k 3))) ?_
      rw [Equiv.symm_apply_apply]
      exact (row_lands wf _ idx c hidx k).2 ⟨rfl, hk⟩
    · rw [hv, if_neg hk]

end Row

end Cert.Jacobi
-- ==== Proof.RefValue.lean ====
/-
  What the reference computes: the relaxation step applied to every plane.

  The reference pads the stack u by one zero on each side of the two plane axes and takes four windows of the padded
  stack; plane by plane these are the four shifted copies of the plane with zero where the plane ends (above, below, left,
  right). It adds them in that order, scales by 1/4 and subtracts 2⁻²² times f. Then four scatters overwrite a line of
  every plane with a line read from the stack just before: the last column with zeros, the first row with the second row,
  the first column with the second column, the last row with the row above it. Plane by plane these are the four boundary
  rules in their order. So plane (b, e) of the result is the step of PlaneOps on plane (b, e) of u and of f.
-/
import proofs.«136769_j22479858827489_1_alg».proof.Proof.Gen.ReferenceIdeal.Read
import proofs.«136769_j22479858827489_1_alg».proof.Proof.PlaneOps
import proofs.«136769_j22479858827489_1_alg».proof.Proof.ScatterLine
import Idealize.ShloMosaic.Lib.KernelVsHost
import Idealize.ShloMosaic.PureOps.Ideal.Laws

set_option maxRecDepth 16384

noncomputable section

namespace Cert.ReferenceIdeal.Plane

open Cert.ReferenceIdeal Cert.ReferenceIdeal.Gen Cert.ReferenceIdeal.Read Cert.Jacobi
open Idealize.ShloMosaic Idealize.ShloMosaic.TcCoe Idealize.SL.Sem Idealize.ShloMosaic.ValueIdx

/-- The zero the programs spell as a float word. -/
abbrev zero : Ideal .f32 := FloatOps.ofBits (F := Ideal) .f32 0x00000000#32

variable (f u : (⟨S32x1x1024x1024, .f32⟩ : BufTy).Contents (Elt Ideal))

/-! ## The padded stack -/

/-- The padding value, the integer zero converted, is the float zero. -/
theorem padval_eq (i : S_.Idx) : val_main_call0_v0 (F := Ideal) i = zero := by
  show ((((0#32 : BitVec 32).toInt : ℤ) : ℝ) : EReal) = Ideal.ofBits .f32 0x00000000#32
  rw [Ideal.ofBits_zero_f32]
  simp

/-- The padded stack at an entry one past the plane entry k on both plane axes is u at k. -/
theorem padded_inside (p : S32x1x1026x1026.Idx) (k : S32x1x1024x1024.Idx) (h0 : (p 0).val = (k 0).val) (h1 : (p 1).val = (k 1).val)
    (h2 : (p 2).val = 1 + (k 2).val) (h3 : (p 3).val = 1 + (k 3).val) : val_main_v0 (F := Ideal) u p = u k := by
  unfold val_main_v0
  exact pad_apply_of_inside _ _ _ u _ pads_S32x1x1024x1024_S32x1x1026x1026_000_000_110_110 h_S_ p k (fun a => match a with
    | ⟨0, _⟩ => by show (p 0).val = 0 + (k 0).val * (0 + 1); omega
    | ⟨1, _⟩ => by show (p 1).val = 0 + (k 1).val * (0 + 1); omega
    | ⟨2, _⟩ => by show (p 2).val = 1 + (k 2).val * (0 + 1); omega
    | ⟨3, _⟩ => by show (p 3).val = 1 + (k 3).val * (0 + 1); omega)

/-- The padded stack is zero on the first and the last padded row. -/
theorem padded_row_outside (p : S32x1x1026x1026.Idx) (h : (p 2).val = 0 ∨ (p 2).val = 1025) : val_main_v0 (F := Ideal) u p = zero := by
  unfold val_main_v0
  refine (pad_apply_of_not_inside _ _ _ u _ pads_S32x1x1024x1024_S32x1x1026x1026_000_000_110_110 h_S_ p 2 ?_).trans (padval_eq _)
  show ¬(1 ≤ (p 2).val ∧ ((p 2).val - 1) % (0 + 1) = 0 ∧ ((p 2).val - 1) / (0 + 1) < 1024)
  omega

/-- The padded stack is zero on the first and the last padded column. -/
theorem padded_col_outside (p : S32x1x1026x1026.Idx) (h : (p 3).val = 0 ∨ (p 3).val = 1025) : val_main_v0 (F := Ideal) u p = zero := by
  unfold val_main_v0
  refine (pad_apply_of_not_inside _ _ _ u _ pads_S32x1x1024x1024_S32x1x1026x1026_000_000_110_110 h_S_ p 3 ?_).trans (padval_eq _)
  show ¬(1 ≤ (p 3).val ∧ ((p 3).val - 1) % (0 + 1) = 0 ∧ ((p 3).val - 1) / (0 + 1) < 1024)
  omega

/-! ## The four windows of the padded stack, plane by plane -/

variable (b : Fin 32) (e : Fin 1)

/-- The window starting one column in: each plane moved one row down. -/
theorem plane_v1 : planeOf (val_main_v1 (F := Ideal) u) b e = rowAbove zero (planeOf u b e) := by
  funext k
  have h0 := idx2_lt0 k
  have h1 := idx2_lt1 k
  show val_main_v1 (F := Ideal) u (stackAt b e (k 0) (k 1)) = _
  rw [val_main_v1_apply]
  unfold rowAbove
  by_cases h : (k 0).val = 0
  · rw [if_pos h]
    exact padded_row_outside u _ (Or.inl h)
  · rw [if_neg h]
    exact padded_inside u _ (stackAt b e ((at2 ((k 0).val - 1) (k 1).val) 0) ((at2 ((k 0).val - 1) (k 1).val) 1)) rfl rfl
      (by show (k 0).val = 1 + min ((k 0).val - 1) 1023; omega) (by show 1 + (k 1).val = 1 + min (k 1).val 1023; omega)

/-- The window starting two rows down and one column in: each plane moved one row up. -/
theorem plane_v2 : planeOf (val_main_v2 (F := Ideal) u) b e = rowBelow zero (planeOf u b e) := by
  funext k
  have h0 := idx2_lt0 k
  have h1 := idx2_lt1 k
  show val_main_v2 (F := Ideal) u (stackAt b e (k 0) (k 1)) = _
  rw [val_main_v2_apply]
  unfold rowBelow
  by_cases h : (k 0).val = 1023
  · rw [if_pos h]
    exact padded_row_outside u _ (Or.inr (by show 2 + (k 0).val = 1025; omega))
  · rw [if_neg h]
    exact padded_inside u _ (stackAt b e ((at2 ((k 0).val + 1) (k 1).val) 0) ((at2 ((k 0).val + 1) (k 1).val) 1)) rfl rfl
      (by show 2 + (k 0).val = 1 + min ((k 0).val + 1) 1023; omega) (by show 1 + (k 1).val = 1 + min (k 1).val 1023; omega)

/-- The window starting one row down: each plane moved one column right. -/
theorem plane_v4 : planeOf (val_main_v4 (F := Ideal) u) b e = colLeft zero (planeOf u b e) := by
  funext k
  have h0 := idx2_lt0 k
  have h1 := idx2_lt1 k
  show val_main_v4 (F := Ideal) u (stackAt b e (k 0) (k 1)) = _
  rw [val_main_v4_apply]
  unfold colLeft
  by_cases h : (k 1).val = 0
  · rw [if_pos h]
    exact padded_col_outside u _ (Or.inl h)
  · rw [if_neg h]
    exact padded_inside u _ (stackAt b e ((at2 (k 0).val ((k 1).val - 1)) 0) ((at2 (k 0).val ((k 1).val - 1)) 1)) rfl rfl
      (by show 1 + (k 0).val = 1 + min (k 0).val 1023; omega) (by show (k 1).val = 1 + min ((k 1).val - 1) 1023; omega)

/-- The window starting one row down and two columns in: each plane moved one column left. -/
theorem plane_v6 : planeOf (val_main_v6 (F := Ideal) u) b e = colRight zero (planeOf u b e) := by
  funext k
  have h0 := idx2_lt0 k
  have h1 := idx2_lt1 k
  show val_main_v6 (F := Ideal) u (stackAt b e (k 0) (k 1)) = _
  rw [val_main_v6_apply]
  unfold colRight
  by_cases h : (k 1).val = 1023
  · rw [if_pos h]
    exact padded_col_outside u _ (Or.inr (by show 2 + (k 1).val = 1025; omega))
  · rw [if_neg h]
    exact padded_inside u _ (stackAt b e ((at2 (k 0).val ((k 1).val + 1)) 0) ((at2 (k 0).val ((k 1).val + 1)) 1)) rfl rfl
      (by show 1 + (k 0).val = 1 + min (k 0).val 1023; omega) (by show 2 + (k 1).val = 1 + min ((k 1).val + 1) 1023; omega)

/-- The scaled sum of the four windows less the scaled right-hand side, plane by plane. -/
theorem plane_v12 : planeOf (val_main_v12 (F := Ideal) f u) b e
    = subf (mulf (broadcast Pl (FloatOps.ofBits (F := Ideal) .f32 0x3E800000#32))
        (addf (addf (addf (rowAbove zero (planeOf u b e)) (rowBelow zero (planeOf u b e))) (colLeft zero (planeOf u b e)))
          (colRight zero (planeOf u b e))))
      (mulf (broadcast Pl (FloatOps.ofBits (F := Ideal) .f32 0x34800000#32)) (planeOf f b e)) := by
  rw [← plane_v1, ← plane_v2, ← plane_v4, ← plane_v6]
  funext k
  show val_main_v12 (F := Ideal) f u (stackAt b e (k 0) (k 1)) = _
  rw [val_main_v12_apply, val_main_v9_apply, val_main_v11_apply, val_main_v7_apply, val_main_v5_apply, val_main_v3_apply,
    val_main_v8_apply, val_main_v10_apply, val_main_cst_apply, val_main_cst_0_apply]
  rfl

/-! ## The four scatters, read at an entry and then plane by plane -/

/-- The first scatter overwrites column 1023 with the zero line. -/
theorem v15_apply (K : S32x1x1024x1024.Idx) :
    val_main_v15 (F := Ideal) f u K
      = if (K 3).val = 1023 then val_main_v14 (F := Ideal) (lineAt (K 0) (K 1) (K 2)) else val_main_v12 (F := Ideal) f u K :=
  scatter_col_apply (by decide) (val_main_v12 (F := Ideal) f u) (val_main_v13 (F := Ideal)) (val_main_v14 (F := Ideal)) 1023
    (by rw [val_main_v13_apply]; show (1023#32 : BitVec 32).toInt = ((1023 : ℕ) : ℤ); decide) K

theorem plane_v15 : planeOf (val_main_v15 (F := Ideal) f u) b e = lastColTo zero (planeOf (val_main_v12 (F := Ideal) f u) b e) := by
  funext k
  show val_main_v15 (F := Ideal) f u (stackAt b e (k 0) (k 1)) = _
  rw [v15_apply]
  unfold lastColTo
  show (if (k 1).val = 1023 then _ else _) = if (k 1).val = 1023 then _ else _
  by_cases h : (k 1).val = 1023
  · rw [if_pos h, if_pos h, val_main_v14_apply]; rfl
  · rw [if_neg h, if_neg h]; rfl

/-- The second scatter overwrites row 0 with the line read from row 1. -/
theorem v19_apply (K : S32x1x1024x1024.Idx) :
    val_main_v19 (F := Ideal) f u K
      = if (K 2).val = 0 then val_main_v17 (F := Ideal) f u (lineAt (K 0) (K 1) (K 3)) else val_main_v15 (F := Ideal) f u K :=
  scatter_row_apply (by decide) (val_main_v15 (F := Ideal) f u) (val_main_v18 (F := Ideal)) (val_main_v17 (F := Ideal) f u) 0
    (by rw [val_main_v18_apply]; show (0#32 : BitVec 32).toInt = ((0 : ℕ) : ℤ); decide) K

/-- The line the second scatter writes: row 1 of each plane. -/
theorem v17_line (r : Fin 1024) :
    val_main_v17 (F := Ideal) f u (lineAt b e r) = val_main_v15 (F := Ideal) f u (stackAt b e ⟨1, by omega⟩ r) := by
  have hb := b.isLt
  have he := e.isLt
  have hr := r.isLt
  rw [val_main_v17_apply, val_main_v16_apply]
  refine congrArg (val_main_v15 (F := Ideal) f u) (funext fun a => Fin.ext ?_)
  match a with
  | ⟨0, _⟩ => show ((b.val * 1 + e.val) * 1024 + r.val) / 1024 = b.val; omega
  | ⟨1, _⟩ => show 0 = e.val; omega
  | ⟨2, _⟩ => show 1 + 0 = 1; rfl
  | ⟨3, _⟩ => show ((b.val * 1 + e.val) * 1024 + r.val) % 1024 = r.val; omega

theorem plane_v19 : planeOf (val_main_v19 (F := Ideal) f u) b e = topFromSecond (planeOf (val_main_v15 (F := Ideal) f u) b e) := by
  funext k
  obtain ⟨p, q, rfl⟩ : ∃ (p q : Fin 1024), k = ix2 p q := ⟨k 0, k 1, eq_ix2 k⟩
  have h0 := p.isLt
  have h1 := q.isLt
  show val_main_v19 (F := Ideal) f u (stackAt b e p q) = _
  rw [v19_apply]
  unfold topFromSecond
  show (if p.val = 0 then val_main_v17 (F := Ideal) f u (lineAt b e q) else val_main_v15 (F := Ideal) f u (stackAt b e p q))
    = if p.val = 0 then planeOf (val_main_v15 (F := Ideal) f u) b e (at2 1 q.val) else planeOf (val_main_v15 (F := Ideal) f u) b e (ix2 p q)
  by_cases h : p.val = 0
  · rw [if_pos h, if_pos h, v17_line]
    refine congrArg (val_main_v15 (F := Ideal) f u) (funext fun a => Fin.ext ?_)
    match a with
    | ⟨0, _⟩ => rfl
    | ⟨1, _⟩ => rfl
    | ⟨2, _⟩ => show 1 = min 1 1023; omega
    | ⟨3, _⟩ => show q.val = min q.val 1023; omega
  · rw [if_neg h, if_neg h]; rfl

/-- The third scatter overwrites column 0 with the line read from column 1. -/
theorem v23_apply (K : S32x1x1024x1024.Idx) :
    val_main_v23 (F := Ideal) f u K
      = if (K 3).val = 0 then val_main_v21 (F := Ideal) f u (lineAt (K 0) (K 1) (K 2)) else val_main_v19 (F := Ideal) f u K :=
  scatter_col_apply (by decide) (val_main_v19 (F := Ideal) f u) (val_main_v22 (F := Ideal)) (val_main_v21 (F := Ideal) f u) 0
    (by rw [val_main_v22_apply]; show (0#32 : BitVec 32).toInt = ((0 : ℕ) : ℤ); decide) K

/-- The line the third scatter writes: column 1 of each plane. -/
theorem v21_line (r : Fin 1024) :
    val_main_v21 (F := Ideal) f u (lineAt b e r) = val_main_v19 (F := Ideal) f u (stackAt b e r ⟨1, by omega⟩) := by
  have hb := b.isLt
  have he := e.isLt
  have hr := r.isLt
  rw [val_main_v21_apply, val_main_v20_apply]
  refine congrArg (val_main_v19 (F := Ideal) f u) (funext fun a => Fin.ext ?_)
  match a with
  | ⟨0, _⟩ => show ((b.val * 1 + e.val) * 1024 + r.val) / 1024 = b.val; omega
  | ⟨1, _⟩ => show 0 = e.val; omega
  | ⟨2, _⟩ => show ((b.val * 1 + e.val) * 1024 + r.val) / 1 % 1024 = r.val; omega
  | ⟨3, _⟩ => show 1 + 0 = 1; rfl

theorem plane_v23 : planeOf (val_main_v23 (F := Ideal) f u) b e = leftFromSecond (planeOf (val_main_v19 (F := Ideal) f u) b e) := by
  funext k
  obtain ⟨p, q, rfl⟩ : ∃ (p q : Fin 1024), k = ix2 p q := ⟨k 0, k 1, eq_ix2 k⟩
  have h0 := p.isLt
  have h1 := q.isLt
  show val_main_v23 (F := Ideal) f u (stackAt b e p q) = _
  rw [v23_apply]
  unfold leftFromSecond
  show (if q.val = 0 then val_main_v21 (F := Ideal) f u (lineAt b e p) else val_main_v19 (F := Ideal) f u (stackAt b e p q))
    = if q.val = 0 then planeOf (val_main_v19 (F := Ideal) f u) b e (at2 p.val 1) else planeOf (val_main_v19 (F := Ideal) f u) b e (ix2 p q)
  by_cases h : q.val = 0
  · rw [if_pos h, if_pos h, v21_line]
    refine congrArg (val_main_v19 (F := Ideal) f u) (funext fun a => Fin.ext ?_)
    match a with
    | ⟨0, _⟩ => rfl
    | ⟨1, _⟩ => rfl
    | ⟨2, _⟩ => show p.val = min p.val 1023; omega
    | ⟨3, _⟩ => show 1 = min 1 1023; omega
  · rw [if_neg h, if_neg h]; rfl

/-- The fourth scatter overwrites row 1023 with the line read from row 1022. -/
theorem v27_apply (K : S32x1x1024x1024.Idx) :
    val_main_v27 (F := Ideal) f u K
      = if (K 2).val = 1023 then val_main_v25 (F := Ideal) f u (lineAt (K 0) (K 1) (K 3)) else val_main_v23 (F := Ideal) f u K :=
  scatter_row_apply (by decide) (val_main_v23 (F := Ideal) f u) (val_main_v26 (F := Ideal)) (val_main_v25 (F := Ideal) f u) 1023
    (by rw [val_main_v26_apply]; show (1023#32 : BitVec 32).toInt = ((1023 : ℕ) : ℤ); decide) K

/-- The line the fourth scatter writes: row 1022 of each plane. -/
theorem v25_line (r : Fin 1024) :
    val_main_v25 (F := Ideal) f u (lineAt b e r) = val_main_v23 (F := Ideal) f u (stackAt b e ⟨1022, by omega⟩ r) := by
  have hb := b.isLt
  have he := e.isLt
  have hr := r.isLt
  rw [val_main_v25_apply, val_main_v24_apply]
  refine congrArg (val_main_v23 (F := Ideal) f u) (funext fun a => Fin.ext ?_)
  match a with
  | ⟨0, _⟩ => show ((b.val * 1 + e.val) * 1024 + r.val) / 1024 = b.val; omega
  | ⟨1, _⟩ => show 0 = e.val; omega
  | ⟨2, _⟩ => show 1022 + 0 = 1022; rfl
  | ⟨3, _⟩ => show ((b.val * 1 + e.val) * 1024 + r.val) % 1024 = r.val; omega

theorem plane_v27 : planeOf (val_main_v27 (F := Ideal) f u) b e = bottomFromAbove (planeOf (val_main_v23 (F := Ideal) f u) b e) := by
  funext k
  obtain ⟨p, q, rfl⟩ : ∃ (p q : Fin 1024), k = ix2 p q := ⟨k 0, k 1, eq_ix2 k⟩
  have h0 := p.isLt
  have h1 := q.isLt
  show val_main_v27 (F := Ideal) f u (stackAt b e p q) = _
  rw [v27_apply]
  unfold bottomFromAbove
  show (if p.val = 1023 then val_main_v25 (F := Ideal) f u (lineAt b e q) else val_main_v23 (F := Ideal) f u (stackAt b e p q))
    = if p.val = 1023 then planeOf (val_main_v23 (F := Ideal) f u) b e (at2 1022 q.val) else planeOf (val_main_v23 (F := Ideal) f u) b e (ix2 p q)
  by_cases h : p.val = 1023
  · rw [if_pos h, if_pos h, v25_line]
    refine congrArg (val_main_v23 (F := Ideal) f u) (funext fun a => Fin.ext ?_)
    match a with
    | ⟨0, _⟩ => rfl
    | ⟨1, _⟩ => rfl
    | ⟨2, _⟩ => show 1022 = min 1022 1023; omega
    | ⟨3, _⟩ => show q.val = min q.val 1023; omega
  · rw [if_neg h, if_neg h]; rfl

/-! ## The reference's result -/

/-- The reference's result is the step on every plane of f and u. -/
theorem result_eq : val_main_v27 (F := Ideal) f u = relaxedAll (F := Ideal) f u := by
  funext K
  obtain ⟨b, e, i, j, rfl⟩ : ∃ (b : Fin 32) (e : Fin 1) (i j : Fin 1024), K = stackAt b e i j := ⟨K 0, K 1, K 2, K 3, eq_ix4 K⟩
  show planeOf (val_main_v27 (F := Ideal) f u) b e (ix2 i j) = relaxed (F := Ideal) (planeOf u b e) (planeOf f b e) (ix2 i j)
  rw [plane_v27, plane_v23, plane_v19, plane_v15, plane_v12]
  rfl

end Cert.ReferenceIdeal.Plane

end
-- ==== Proof.lean ====
/-
  One Jacobi relaxation step with boundary rules, on 32 planes of 1024 × 1024 entries: the kernel against the reference.

  Both programs compute, on every plane U of the stack u with the matching plane Fm of f,
      W(i, j) = 1/4 · (((U(i-1, j) + U(i+1, j)) + U(i, j-1)) + U(i, j+1)) − 2⁻²² · Fm(i, j),
  a neighbour outside the plane counting as zero, and then apply four rules in this order, each to the result of the one
  before: the last column becomes zero; the first row becomes a copy of the second; the first column becomes a copy of the
  second; the last row becomes a copy of the row above it. The arguments dbc and nbc are read by neither.

  The kernel does this one plane per grid point, building the shifted planes and the boundary rules by joining strips and
  windows of the plane; the reference does it on the whole stack, with one padding, four windows of the padded stack and
  four scatters of a line. Both sums are taken in the same order and with the same three float words, so on the extended
  reals the two results are the same function of f and u, entry by entry, with no algebraic law needed and no use of the
  inputs being finite: Proof/PlaneOps.lean names that function (the step on a plane, and on every plane of a stack),
  Proof/KernelValue.lean shows the kernel's result array ends as it, and Proof/RefValue.lean shows the reference's result
  is it (with Proof/ScatterLine.lean reading the two kinds of scatter at an entry).

  The three frames are the generated ones (the reference's is its generated run with the result dropped). The kernel's
  idealization rewrote nothing, so there is nothing to preserve.
-/
import proofs.«136769_j22479858827489_1_alg».proof.Defs
import proofs.«136769_j22479858827489_1_alg».proof.Proof.Gen.Kernel
import proofs.«136769_j22479858827489_1_alg».proof.Proof.Gen.Kernel.Skeleton
import proofs.«136769_j22479858827489_1_alg».proof.Proof.Gen.Kernel.Launch
import proofs.«136769_j22479858827489_1_alg».proof.Proof.Gen.Kernel.Points
import proofs.«136769_j22479858827489_1_alg».proof.Proof.Gen.Kernel.Frame
import proofs.«136769_j22479858827489_1_alg».proof.Proof.Gen.KernelIdeal
import proofs.«136769_j22479858827489_1_alg».proof.Proof.Gen.KernelIdeal.Skeleton
import proofs.«136769_j22479858827489_1_alg».proof.Proof.Gen.KernelIdeal.Launch
import proofs.«136769_j22479858827489_1_alg».proof.Proof.Gen.KernelIdeal.Points
import proofs.«136769_j22479858827489_1_alg».proof.Proof.Gen.KernelIdeal.Frame
import proofs.«136769_j22479858827489_1_alg».proof.Proof.Gen.ReferenceIdeal
import proofs.«136769_j22479858827489_1_alg».proof.Proof.Gen.Pre_finite_inputs
import proofs.«136769_j22479858827489_1_alg».proof.Proof.Gen.KernelIdeal.Value
import proofs.«136769_j22479858827489_1_alg».proof.Proof.Gen.ReferenceIdeal.Run
import proofs.«136769_j22479858827489_1_alg».proof.Proof.Gen.ReferenceIdeal.Read
import proofs.«136769_j22479858827489_1_alg».proof.Proof.KernelValue
import proofs.«136769_j22479858827489_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the step on every plane of f and u in their result
    arrays: the kernel by its value leg, the reference by its run read stage by stage. -/
theorem algebraic : Cert.algebraic_KernelIdeal_ReferenceIdeal := by
  intro m ρ m' ρ' _ hagree
  refine ⟨fun c => Cert.Jacobi.relaxedAll (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3)),
    Cert.KernelIdeal.Plane.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.Plane.result_eq, (hagree c).1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
